-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S32000x128 : Shape := ⟨2, ![32000, 128]⟩
abbrev S_ : Shape := ⟨0, ![]⟩

class Facts : Prop where
  bcast_S_S32000x128 : S_.BroadcastsInDim S32000x128 (![] : Fin 0 → Fin S32000x128.rank)
  reducesTo_S32000x128_S_d0_1 : S32000x128.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_

variable [Facts]

def fn {F : FTy → Type} [FloatOps F] (main_arg0 : IVec S32x4096 32) (main_arg1 : FVec F S32000x128 .f32) : IVec S_ 1 :=
  let main_v0 : FVec F S32000x128 .f32 := Host.absf main_arg1
  let main_cst : FVec F S_ .f32 := constant S_ .f32 0x7F800000#32
  let main_v1 : FVec F S32000x128 .f32 := broadcastInDim S32000x128 ![] bcast_S_S32000x128 main_cst
  let main_v2 : IVec S32000x128 1 := cmpf .olt main_v0 main_v1
  let main_c : IVec S_ 1 := constantI S_ 1 1#1
  let main_v3 : IVec S_ 1 := (fun x v => Host.reduce IntOp.andi x v reducesTo_S32000x128_S_d0_1 h_S_) main_v2 main_c
  let main_c_0 : IVec S_ 32 := constantI S_ 32 0#32
  let main_v4 : IVec S32x4096 32 := broadcastInDim S32x4096 ![] bcast_S_S32x4096 main_c_0
  let main_v5 : IVec S32x4096 1 := cmpi .sge main_arg0 main_v4
  let main_c_1 : IVec S_ 1 := constantI S_ 1 1#1
  let main_v6 : IVec S_ 1 := (fun x v => Host.reduce IntOp.andi x v reducesTo_S32x4096_S_d0_1 h_S_) main_v5 main_c_1
  let main_v7 : IVec S_ 1 := andi main_v3 main_v6
  let main_c_2 : IVec S_ 32 := constantI S_ 32 32000#32
  let main_v8 : IVec S32x4096 32 := broadcastInDim S32x4096 ![] bcast_S_S32x4096 main_c_2
  let main_v9 : IVec S32x4096 1 := cmpi .slt main_arg0 main_v8
  let main_c_3 : IVec S_ 1 := constantI S_ 1 1#1
  let main_v10 : IVec S_ 1 := (fun x v => Host.reduce IntOp.andi x v reducesTo_S32x4096_S_d0_1 h_S_) main_v9 main_c_3
  let main_v11 : IVec S_ 1 := andi main_v7 main_v10
  main_v11
-- ==== Kernel.lean ====
abbrev S32x4096 : Shape := ⟨2, ![32, 4096]⟩
abbrev S32000x128 : Shape := ⟨2, ![32000, 128]⟩
abbrev S131072x1 : Shape := ⟨2, ![131072, 1]⟩
abbrev S131072x128 : Shape := ⟨2, ![131072, 128]⟩
abbrev S2048x1 : Shape := ⟨2, ![2048, 1]⟩
abbrev S3200x128 : Shape := ⟨2, ![3200, 128]⟩
abbrev S2048x128 : Shape := ⟨2, ![2048, 128]⟩
abbrev S1x3200 : Shape := ⟨2, ![1, 3200]⟩
abbrev S2048x3200 : Shape := ⟨2, ![2048, 3200]⟩
abbrev S32x4096x128 : Shape := ⟨3, ![32, 4096, 128]⟩

abbrev nBuf : Space → Nat
  | .hbm => 6
  | .vmem => 7
  | .smem => 0
  | _ => 0

abbrev bufTy : (tb : Table) → Fin (tcTables nBuf tb) → BufTy
  | .hbm, ⟨0, _⟩ => ⟨S32x4096, .i32⟩
  | .hbm, ⟨1, _⟩ => ⟨S32000x128, .f32⟩
  | .hbm, ⟨2, _⟩ => ⟨S131072x1, .i32⟩
  | .hbm, ⟨3, _⟩ => ⟨S32000x128, .bf16⟩
  | .hbm, ⟨4, _⟩ => ⟨S131072x128, .f32⟩
  | .hbm, ⟨5, _⟩ => ⟨S32x4096x128, .f32⟩
  | .local _ .vmem, ⟨0, _⟩ => ⟨S2048x1, .i32⟩
  | .local _ .vmem, ⟨1, _⟩ => ⟨S2048x1, .i32⟩
  | .local _ .vmem, ⟨2, _⟩ => ⟨S3200x128, .bf16⟩
  | .local _ .vmem, ⟨3, _⟩ => ⟨S3200x128, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S32x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 10], ![false, false]⟩

def k0_cond2 (i : grid0.Coords) : BitVec 1 :=
  let arg1 : BitVec 32 := BitVec.ofNat 32 (i 1).val
  let c9_i32 : BitVec 32 := 9#32
  let v23 : BitVec 1 := Scalar.cmpi .eq arg1 c9_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32x4096_S131072x1 : S32x4096.ShapeCasts S131072x1
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S1x3200_d1_w32 : S1x3200.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x3200 : S2048x1.Broadcasts S2048x3200
  broadcasts_S1x3200_S2048x3200 : S1x3200.Broadcasts S2048x3200
  natLt_1_32 : 1 < 32
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  shapeCasts_S131072x128_S32x4096x128 : S131072x128.ShapeCasts S32x4096x128
  dot_S2048x3200_S3200x128_S2048x128_1_0_0_1_n_n_wf : DotDims.WF S2048x3200 S3200x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S131072x1.size a
  hwx0_0 : ∀ i : grid0.Coords, EltTy.bits .i32 = 32 ∨ (Rect.block (s := S131072x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S32000x128.size a
  hwx0_1 : ∀ i : grid0.Coords, EltTy.bits .bf16 = 32 ∨ (Rect.block (s := S32000x128) S3200x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)

variable [Facts₀]

def dot_S2048x3200_S3200x128_S2048x128_1_0_0_1_n_n : DotDims S2048x3200 S3200x128 S2048x128 where
  lhsContracting := [1]
  rhsContracting := [0]
  lhsNonContracting := [0]
  rhsNonContracting := [1]
  lhsBatch := []
  rhsBatch := []
  wf := dot_S2048x3200_S3200x128_S2048x128_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x4096 : Shape := ⟨2, ![32, 4096]⟩
abbrev S32000x128 : Shape := ⟨2, ![32000, 128]⟩
abbrev S_ : Shape := ⟨0, ![]⟩
abbrev S32x4096x1 : Shape := ⟨3, ![32, 4096, 1]⟩
abbrev S1 : Shape := ⟨1, ![1]⟩
abbrev S1x1x1 : Shape := ⟨3, ![1, 1, 1]⟩
abbrev S32x4096x128 : Shape := ⟨3, ![32, 4096, 128]⟩

abbrev nBuf : Space → Nat
  | .hbm => 25
  | .vmem => 0
  | .smem => 0
  | _ => 0

abbrev bufTy : (tb : Table) → Fin (tcTables nBuf tb) → BufTy
  | .hbm, ⟨0, _⟩ => ⟨S32x4096, .i32⟩
  | .hbm, ⟨1, _⟩ => ⟨S32000x128, .f32⟩
  | .hbm, ⟨2, _⟩ => ⟨S_, .i32⟩
  | .hbm, ⟨3, _⟩ => ⟨S32x4096, .i32⟩
  | .hbm, ⟨4, _⟩ => ⟨S32x4096, .i1⟩
  | .hbm, ⟨5, _⟩ => ⟨S_, .i32⟩
  | .hbm, ⟨6, _⟩ => ⟨S32x4096, .i32⟩
  | .hbm, ⟨7, _⟩ => ⟨S32x4096, .i32⟩
  | .hbm, ⟨8, _⟩ => ⟨S32x4096, .i32⟩
  | .hbm, ⟨9, _⟩ => ⟨S32x4096x1, .i32⟩
  | .hbm, ⟨10, _⟩ => ⟨S1, .i32⟩
  | .hbm, ⟨11, _⟩ => ⟨S_, .i32⟩
  | .hbm, ⟨12, _⟩ => ⟨S32x4096x1, .i32⟩
  | .hbm, ⟨13, _⟩ => ⟨S32x4096x1, .i1⟩
  | .hbm, ⟨14, _⟩ => ⟨S1x1x1, .i32⟩
  | .hbm, ⟨15, _⟩ => ⟨S32x4096x1, .i32⟩
  | .hbm, ⟨16, _⟩ => ⟨S32x4096x1, .i1⟩
  | .hbm, ⟨17, _⟩ => ⟨S32x4096x1, .i1⟩
  | .hbm, ⟨18, _⟩ => ⟨S_, .i1⟩
  | .hbm, ⟨19, _⟩ => ⟨S32x4096, .i1⟩
  | .hbm, ⟨20, _⟩ => ⟨S32x4096x128, .f32⟩
  | .hbm, ⟨21, _⟩ => ⟨S32x4096x128, .i1⟩
  | .hbm, ⟨22, _⟩ => ⟨S_, .f32⟩
  | .hbm, ⟨23, _⟩ => ⟨S32x4096x128, .f32⟩
  | .hbm, ⟨24, _⟩ => ⟨S32x4096x128, .f32⟩
  | _, _ => ⟨S32x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S1_S1x1x1_2 : S1.BroadcastsInDim S1x1x1 (![2] : Fin 1 → Fin S1x1x1.rank)
  bcast_S1x1x1_S32x4096x1_0_1_2 : S1x1x1.BroadcastsInDim S32x4096x1 (![0, 1, 2] : Fin 3 → Fin S32x4096x1.rank)
  reducesTo_S32x4096x1_S32x4096_d2 : S32x4096x1.ReducesTo [2] S32x4096
  h_S_ : 0 < S_.numel
  bcast_S32x4096_S32x4096x128_0_1 : S32x4096.BroadcastsInDim S32x4096x128 (![0, 1] : Fin 2 → Fin S32x4096x128.rank)
  bcast_S_S32x4096x128 : S_.BroadcastsInDim S32x4096x128 (![] : Fin 0 → Fin S32x4096x128.rank)
  gather_S32000x128_S32x4096x1_S32x4096x128_2_0_n_n_0_2_1128_wf : GatherDims.WF S32000x128 S32x4096x1 S32x4096x128 [2] [0] [] [0] [] 2 ![1, 128]

variable [Facts₀]

def gather_S32000x128_S32x4096x1_S32x4096x128_2_0_n_n_0_2_1128 : GatherDims S32000x128 S32x4096x1 S32x4096x128 where
  offsetDims := [2]
  collapsedSliceDims := [0]
  operandBatchingDims := []
  startIndicesBatchingDims := []
  startIndexMap := [0]
  indexVectorDim := 2
  sliceSizes := ![1, 128]
  wf := gather_S32000x128_S32x4096x1_S32x4096x128_2_0_n_n_0_2_1128_wf

class Facts : Prop extends Facts₀ where

variable [Facts]
-- ==== Proof.Spec.lean ====
/-
  The specification of an embedding lookup, stated once for both programs.

  A table of 32000 rows of 128 reals and a [32, 4096] array of 32-bit token ids give a [32, 4096, 128] array:
  entry (b, s, d) is entry d of the table's row named by token (b, s). A token id names a row when, read as a
  natural number, it is below 32000; `rowOf` reduces the word modulo 32000 so that the lookup is a total
  function of its arguments, and on ids in range the reduction is the identity.

  Both programs are shown to end at `lookup` of their arguments when every id is in range: the reference
  gathers the row directly; the kernel adds, over the 32000 rows, the row times the indicator that the id
  names it. On the extended reals the two agree with no finiteness assumption: a zero indicator annihilates
  every extended real (0 * x = 0, also at the infinities) and adding zero changes nothing, so a sum with one
  nonzero term is that term.
-/
import Idealize.ShloMosaic.PureOps.Ideal
import Idealize.ShloMosaic.Lib.ValueIdx

noncomputable section

namespace Cert.Embed

open Idealize.ShloMosaic Idealize.ShloMosaic.ValueIdx

/-- The token ids: 32 sequences of 4096 tokens. -/
abbrev SIds : Shape := ⟨2, ![32, 4096]⟩
/-- The table: one row of 128 entries per vocabulary id. -/
abbrev STable : Shape := ⟨2, ![32000, 128]⟩
/-- The result: a row of the table per token. -/
abbrev SOut : Shape := ⟨3, ![32, 4096, 128]⟩

/-- Every token id names a row of the table: as a natural number it is below the vocabulary size. (For a 32-bit
    word this says that, read signed, it lies in [0, 32000).) -/
def InRange (ids : IVec SIds 32) : Prop := ∀ i, (ids i).toNat < 32000

/-- The row a word names, reduced modulo the vocabulary size so that it is defined for every word. -/
def rowOf (w : BitVec 32) : Fin 32000 := ⟨w.toNat % 32000, Nat.mod_lt _ (by norm_num)⟩

/-- On a word in range the reduction does nothing. -/
theorem rowOf_val {w : BitVec 32} (h : w.toNat < 32000) : (rowOf w).val = w.toNat := Nat.mod_eq_of_lt h

/-- THE LOOKUP: entry (b, s, d) of the result is entry d of the row token (b, s) names. -/
def lookup (ids : IVec SIds 32) (table : FVec Ideal STable .f32) : FVec Ideal SOut .f32 :=
  fun i => table (ix2 (rowOf (ids (ix2 (i 0) (i 1)))) (i 2))

theorem lookup_apply (ids : IVec SIds 32) (table : FVec Ideal STable .f32) (b : Fin 32) (s : Fin 4096) (d : Fin 128) :
    lookup ids table (ix3 b s d) = table (ix2 (rowOf (ids (ix2 b s))) d) := rfl

/-! ## The same lookup over the tokens laid flat

The kernel sees the [32, 4096] ids as one column of 131072 tokens, token n being (n / 4096, n % 4096), and produces
a [131072, 128] array that is viewed [32, 4096, 128] afterwards. -/

/-- The flat result: a row of the table per flat token. -/
abbrev SFlat : Shape := ⟨2, ![131072, 128]⟩

/-- The id of flat token n. -/
def flatId (ids : IVec SIds 32) (n : Fin 131072) : BitVec 32 :=
  ids (ix2 ⟨n.val / 4096, by have := n.isLt; omega⟩ ⟨n.val % 4096, Nat.mod_lt _ (by norm_num)⟩)

/-- Token (b, s) is flat token 4096 b + s. -/
theorem flatId_mk (ids : IVec SIds 32) (b : Fin 32) (s : Fin 4096) (h : 4096 * b.val + s.val < 131072) :
    flatId ids ⟨4096 * b.val + s.val, h⟩ = ids (ix2 b s) := by
  unfold flatId
  refine congrArg ids (congrArg₂ ix2 (Fin.ext ?_) (Fin.ext ?_))
  · show (4096 * b.val + s.val) / 4096 = b.val
    have := s.isLt; omega
  · show (4096 * b.val + s.val) % 4096 = s.val
    have := s.isLt; omega

/-- The lookup over flat tokens: entry (n, d) is entry d of the row flat token n names. -/
def lookupFlat (ids : IVec SIds 32) (table : FVec Ideal STable .f32) : FVec Ideal SFlat .f32 :=
  fun i => table (ix2 (rowOf (flatId ids (i 0))) (i 1))

theorem lookupFlat_apply (ids : IVec SIds 32) (table : FVec Ideal STable .f32) (n : Fin 131072) (d : Fin 128) :
    lookupFlat ids table (ix2 n d) = table (ix2 (rowOf (flatId ids n)) d) := rfl

/-- The accumulator's entry after the vocabulary ids below k have been scanned: the table's entry once the token's
    id has been met, zero before. -/
def scanned (w : BitVec 32) (k : ℕ) (x : EReal) : EReal := if w.toNat < k then x else 0

/-- Scanning 3200 more ids adds the entry exactly when the token's id is among them. -/
theorem scanned_step (w : BitVec 32) (k : ℕ) (x : EReal) :
    scanned w k x + (if k ≤ w.toNat ∧ w.toNat < k + 3200 then x else 0) = scanned w (k + 3200) x := by
  unfold scanned
  by_cases h1 : w.toNat < k
  · have h2 : ¬(k ≤ w.toNat ∧ w.toNat < k + 3200) := fun h => by omega
    have h3 : w.toNat < k + 3200 := by omega
    rw [if_pos h1, if_neg h2, if_pos h3, add_zero]
  · by_cases h2 : w.toNat < k + 3200
    · rw [if_neg h1, if_pos ⟨by omega, h2⟩, if_pos h2, zero_add]
    · rw [if_neg h1, if_neg (fun h => h2 h.2), if_neg h2, add_zero]

/-- Before any id is scanned the entry is zero, -/
theorem scanned_zero (w : BitVec 32) (x : EReal) : scanned w 0 x = 0 := if_neg (Nat.not_lt_zero _)

/-- and once all 32000 are scanned, the entry of a token in range is the table's. -/
theorem scanned_all {w : BitVec 32} (h : w.toNat < 32000) (x : EReal) : scanned w 32000 x = x := if_pos h

end Cert.Embed

end
-- ==== Proof.PreRange.lean ====
/-
  From the precondition to the range of the token ids.

  The precondition is the conjunction of three scalar bits: every table entry is finite, every token id is at
  least zero (compared signed), and every token id is below 32000 (compared signed). Each of the last two is a
  conjunction over all [32, 4096] ids, so when the precondition is one, each id's own two comparison bits are
  one. A 32-bit word that is at least zero and below 32000 when read signed has its sign bit clear, so its
  unsigned value is its signed value and is below 32000: the id names a row of the table. The finiteness bit is
  not used: the lookup needs no arithmetic law that fails at an infinity.
-/
import proofs.«413346_j58969900974133_2_alg».proof.Pre_finite_inputs
import proofs.«413346_j58969900974133_2_alg».proof.Proof.Spec
import Idealize.ShloMosaic.Lib.ReduceAll
import Idealize.ShloMosaic.Lib.Affine

noncomputable section

namespace Cert.Embed

open Idealize.ShloMosaic Idealize.ShloMosaic.ValueIdx

/-- A word that, read signed, is at least zero and below 32000 is below 32000 read unsigned. -/
theorem toNat_lt_of_signed_range {a : BitVec 32} (h0 : IntOp.cmpi .sge a 0#32 = 1#1)
    (h1 : IntOp.cmpi .slt a 32000#32 = 1#1) : a.toNat < 32000 := by
  have g0 : (0#32 : BitVec 32).toInt ≤ a.toInt := IntOp.cmpi_sge.mp h0
  have g1 : a.toInt < (32000#32 : BitVec 32).toInt := IntOp.cmpi_slt.mp h1
  have e0 : (0#32 : BitVec 32).toInt = 0 := by decide
  have e1 : (32000#32 : BitVec 32).toInt = 32000 := by decide
  rw [e0] at g0
  rw [e1] at g1
  have hlt : a.toNat < 2 ^ 32 := a.isLt
  rw [BitVec.toInt_eq_toNat_cond] at g0 g1
  split at g0 <;> omega

/-- The scalar shape has one index. -/
instance : Subsingleton Cert.Pre_finite_inputs.S_.Idx := ⟨fun _ _ => funext fun d => d.elim0⟩

/-- THE RANGE: where the precondition holds, every token id names a row of the table. Stated at any instance of
    the float operations, since the ids are words at every instance. -/
theorem inRange_of_pre {F : FTy → Type} [FloatOps F] [Cert.Pre_finite_inputs.Facts]
    (ids : IVec SIds 32) (table : FVec F STable .f32)
    (h : Cert.Pre_finite_inputs.fn (F := F) ids table = fun _ => 1#1) : InRange ids := by
  intro i
  have h1 := congrFun h ix0
  dsimp only [Cert.Pre_finite_inputs.fn] at h1
  obtain ⟨h7, hlt⟩ := IntOp.andi_eq_one.mp h1
  obtain ⟨_, hge⟩ := IntOp.andi_eq_one.mp h7
  exact toNat_lt_of_signed_range (Host.reduce_andi_all _ _ _ _ _ hge i) (Host.reduce_andi_all _ _ _ _ _ hlt i)

end Cert.Embed

end
-- ==== Proof.RefRun.lean ====
/-
  The reference program's run, read back as a pure function of its arguments.

  The reference is a row lookup written with numpy's conventions: a negative id is first shifted up by the
  vocabulary size (so that -1 names the last row), the shifted id is tested against [0, 31999], the table's row
  at the id (clamped into range) is gathered, and where the test fails the row is replaced by a fill word. Its
  @main is a straight line of twenty-three array operations once the two outlined functions are read at their
  call sites. Here that line is listed, the program is shown to be the sequence of the listed operations, and
  from that every weakly fair execution ends with the result array at the operations' composition `gathered`
  of the two argument arrays, the arguments themselves unchanged.
-/
import proofs.«413346_j58969900974133_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The id after numpy's treatment of negative positions: an id below zero is shifted up by the vocabulary size. -/
def shifted (ids : IVec S32x4096 32) : IVec S32x4096 32 :=
  select (cmpi .slt ids (broadcastInDim S32x4096 ![] bcast_S_S32x4096 (constantI S_ 32 0#32)))
    (addi ids (broadcastInDim S32x4096 ![] bcast_S_S32x4096 (constantI S_ 32 32000#32))) ids

/-- The shifted ids as a column of start positions for the gather. -/
def starts (ids : IVec S32x4096 32) : IVec S32x4096x1 32 :=
  broadcastInDim S32x4096x1 ![0, 1] bcast_S32x4096_S32x4096x1_0_1 (shifted ids)

/-- Per token, whether its shifted id lies in [0, 31999]: the two signed comparisons, joined, and reduced over the
    unit axis of the column. -/
def inside (ids : IVec S32x4096 32) : IVec S32x4096 1 :=
  Host.reduce IntOp.andi
    (andi (cmpi .sge (starts ids) (broadcastInDim S32x4096x1 ![] bcast_S_S32x4096x1 (constantI S_ 32 0#32)))
      (cmpi .sle (starts ids) (broadcastInDim S32x4096x1 ![0, 1, 2] bcast_S1x1x1_S32x4096x1_0_1_2
        (broadcastInDim S1x1x1 ![2] bcast_S1_S1x1x1_2 (constantI S1 32 31999#32)))))
    (constantI S_ 1 1#1) reducesTo_S32x4096x1_S32x4096_d2 h_S_

/-- THE REFERENCE'S RESULT as a function of its arguments: the gathered rows where the id is inside, the fill word
    elsewhere. -/
def gathered (ids : IVec S32x4096 32) (table : FVec F S32000x128 .f32) : FVec F S32x4096x128 .f32 :=
  select (broadcastInDim S32x4096x128 ![0, 1] bcast_S32x4096_S32x4096x128_0_1 (inside ids))
    (Host.gather gather_S32000x128_S32x4096x1_S32x4096x128_2_0_n_n_0_2_1128 table (starts ids))
    (broadcastInDim S32x4096x128 ![] bcast_S_S32x4096x128 (constant S_ .f32 0x7FC00000#32))

/-- @main's operations in order, the lookup function's and the select function's read at their call sites over the
    call's buffers. -/
abbrev ops : List (HloOp τ sig (Elt F)) :=
  [ TRef.nullary main_call0.c (constantI S_ 32 0#32),
    TRef.unary main_call0.c main_call0.v0 (broadcastInDim S32x4096 ![] bcast_S_S32x4096),
    TRef.binary (.of main_arg0) main_call0.v0 main_call0.v1 (cmpi .slt),
    TRef.nullary main_call0.c_0 (constantI S_ 32 32000#32),
    TRef.unary main_call0.c_0 main_call0.v2 (broadcastInDim S32x4096 ![] bcast_S_S32x4096),
    TRef.binary (.of main_arg0) main_call0.v2 main_call0.v3 addi,
    TRef.ternary main_call0.v1 main_call0.v3 (.of main_arg0) main_call0.call0.v0 select,
    TRef.unary main_call0.call0.v0 main_call0.v5 (broadcastInDim S32x4096x1 ![0, 1] bcast_S32x4096_S32x4096x1_0_1),
    TRef.nullary main_call0.c_1 (constantI S1 32 31999#32),
    TRef.nullary main_call0.c_2 (constantI S_ 32 0#32),
    TRef.unary main_call0.c_2 main_call0.v6 (broadcastInDim S32x4096x1 ![] bcast_S_S32x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S32x4096x1 ![0, 1, 2] bcast_S1x1x1_S32x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32x4096x1_S32x4096_d2 h_S_),
    TRef.binary (.of main_arg1) main_call0.v5 main_call0.v13 (fun x i => Host.gather gather_S32000x128_S32x4096x1_S32x4096x128_2_0_n_n_0_2_1128 x i),
    TRef.unary main_call0.v12 main_call0.v14 (broadcastInDim S32x4096x128 ![0, 1] bcast_S32x4096_S32x4096x128_0_1),
    TRef.nullary main_call0.cst (constant S_ .f32 0x7FC00000#32),
    TRef.unary main_call0.cst main_call0.v15 (broadcastInDim S32x4096x128 ![] bcast_S_S32x4096x128),
    TRef.ternary main_call0.v14 main_call0.v13 main_call0.v15 main_call0.v16 select ]

set_option maxRecDepth 1024 in
/-- @main is that straight line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
set_option maxHeartbeats 1600000 in
/-- The fold of the operations, read at the result's buffer, is `gathered` of what the valuation holds at the two
    arguments: each operation either writes the buffer read or leaves it, and the typed references' transports are
    the identity at these literal references. The reduction and the gather stay folded meanwhile: the equation never
    looks inside them. -/
theorem out_eq (V : Valuation τ sig (Elt F)) :
    after ops V (main_v0 : DevRef τ sig)
      = gathered (F := F) (V (main_arg0 : DevRef τ sig)) (V (main_arg1 : DevRef τ sig)) := by
  simp only [after_cons, after_nil]
  unfold gathered inside starts shifted
  rfl

/-- No operation writes the first argument's buffer. -/
theorem arg0_eq (V : Valuation τ sig (Elt F)) :
    after ops V (main_arg0 : DevRef τ sig) = V (main_arg0 : DevRef τ sig) := by
  simp only [after_cons, after_nil]
  rfl

/-- No operation writes the second argument's buffer. -/
theorem arg1_eq (V : Valuation τ sig (Elt F)) :
    after ops V (main_arg1 : DevRef τ sig) = V (main_arg1 : DevRef τ sig) := by
  simp only [after_cons, after_nil]
  rfl

/-- On every device, from any memory with zero counters: every weakly fair execution of @main terminates with the
    result array at `gathered` of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
        = gathered (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's result is the lookup, when every token id names a row.

  Index by index at (b, s, d). The id w of token (b, s), read unsigned, is below 32000, so read signed it is not
  negative: numpy's shift for negative positions leaves it alone. Its two range comparisons against 0 and 31999
  both hold, and their conjunction reduced over the column's unit axis is one, so the result takes the gathered
  row and never the fill word. The gather of a [32000, 128] table at a [32, 4096, 1] column of starts, with the
  row axis collapsed and the entry axis kept, reads at (b, s, d) the table at the start of (b, s) clamped into
  [0, 31999] on the row axis, and at d on the entry axis; the clamp does nothing to a start already in range. So
  the entry is the table's at (w, d): the lookup.
-/
import proofs.«413346_j58969900974133_2_alg».proof.Proof.RefRun
import proofs.«413346_j58969900974133_2_alg».proof.Proof.Spec
import Idealize.ShloMosaic.Lib.ValueIdx
import Idealize.ShloMosaic.Lib.Pipeline.Value
import Idealize.ShloMosaic.Lib.Affine
import Idealize.ShloMosaic.PureOps.Reduce

noncomputable section

namespace Cert.ReferenceIdeal.RefValue

open Cert.ReferenceIdeal Cert.ReferenceIdeal.Gen Cert.ReferenceIdeal.RefRun Cert.Embed
open Idealize.ShloMosaic Idealize.ShloMosaic.ValueIdx

/-! ## Words in range -/

/-- A word below 32000 read unsigned has the same value read signed. -/
theorem toInt_of_lt {w : BitVec 32} (h : w.toNat < 32000) : w.toInt = (w.toNat : ℤ) := by
  have hlt : w.toNat < 2 ^ 32 := w.isLt
  rw [BitVec.toInt_eq_toNat_cond]
  split <;> omega

theorem not_negative {w : BitVec 32} (h : w.toNat < 32000) : IntOp.cmpi .slt w 0#32 = 0#1 :=
  eq_zero_of_ne_one fun hc => by
    have g := IntOp.cmpi_slt.mp hc
    have e0 : (0#32 : BitVec 32).toInt = 0 := by decide
    rw [e0, toInt_of_lt h] at g
    omega

theorem at_least_zero {w : BitVec 32} (h : w.toNat < 32000) : IntOp.cmpi .sge w 0#32 = 1#1 :=
  IntOp.cmpi_sge.mpr (by
    have e0 : (0#32 : BitVec 32).toInt = 0 := by decide
    rw [e0, toInt_of_lt h]
    omega)

theorem at_most_last {w : BitVec 32} (h : w.toNat < 32000) : IntOp.cmpi .sle w 31999#32 = 1#1 :=
  IntOp.cmpi_sle.mpr (by
    have e1 : (31999#32 : BitVec 32).toInt = 31999 := by decide
    rw [e1, toInt_of_lt h]
    omega)

/-- A conjunction folded from one over a list whose members' bits are all one is one. -/
theorem foldl_andi_of_all {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_of_all f l _ (IntOp.andi_eq_one.2 ⟨h, hl a List.mem_cons_self⟩)
      (fun n hn => hl n (List.mem_cons_of_mem _ hn))

/-! ## The reference's stages at an index -/

variable (ids : IVec S32x4096 32)

/-- An id in range is not shifted. -/
theorem shifted_apply (h : InRange ids) (j : S32x4096.Idx) : shifted ids j = ids j := by
  unfold shifted
  rw [select_apply]
  have hc : cmpi .slt ids (broadcastInDim S32x4096 ![] bcast_S_S32x4096 (constantI S_ 32 0#32)) j = 0#1 :=
    not_negative (h j)
  rw [hc, select_zero]

/-- The column of starts at (b, s, ·) is the shifted id of token (b, s). -/
theorem starts_apply (i : S32x4096x1.Idx) : starts ids i = shifted ids (ix2 (i 0) (i 1)) := by
  unfold starts
  exact broadcastInDim_apply _ _ _ i (ix2 (i 0) (i 1)) fun a => by
    match a with
    | ⟨0, _⟩ => rfl
    | ⟨1, _⟩ => rfl

/-- Every token's shifted id passes the range test. -/
theorem inside_eq_one (h : InRange ids) (j : S32x4096.Idx) : inside ids j = 1#1 := by
  unfold inside
  rw [Host.reduce_eq_foldl]
  refine foldl_andi_of_all _ _ _ rfl fun i _ => ?_
  show IntOp.andi (IntOp.cmpi .sge (starts ids i) 0#32) (IntOp.cmpi .sle (starts ids i) 31999#32) = 1#1
  rw [starts_apply, shifted_apply ids h]
  exact IntOp.andi_eq_one.2 ⟨at_least_zero (h _), at_most_last (h _)⟩

/-! ## The gather at an index -/

/-- On the ROW axis the gather reads the start of token (b, s), signed and clamped into [0, 31999]: the axis is collapsed
    (no offset within the slice) and is not a batching axis. -/
theorem gather_row_axis (idx : IVec S32x4096x1 32) (b : Fin 32) (s : Fin 4096) (d : Fin 128) :
    gather_S32000x128_S32x4096x1_S32x4096x128_2_0_n_n_0_2_1128.start (ix3 b s d) idx 0 + gather_S32000x128_S32x4096x1_S32x4096x128_2_0_n_n_0_2_1128.batchCoord (ix3 b s d) 0 + gather_S32000x128_S32x4096x1_S32x4096x128_2_0_n_n_0_2_1128.offCoord (ix3 b s d) 0
      = min (idx (ix3 b s 0)).toInt.toNat 31999 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S32000x128_S32x4096x1_S32x4096x128_2_0_n_n_0_2_1128.startIndexMap from List.mem_singleton.mpr rfl)]
  have hsi : gather_S32000x128_S32x4096x1_S32x4096x128_2_0_n_n_0_2_1128.siIdx (ix3 b s d)
      ⟨List.idxOf (0 : Fin 2) gather_S32000x128_S32x4096x1_S32x4096x128_2_0_n_n_0_2_1128.startIndexMap, List.idxOf_lt_length_iff.2 (List.mem_singleton.mpr rfl)⟩ = ix3 b s 0 := by
    funext c; refine Fin.ext ?_
    match c with
    | ⟨0, _⟩ => rfl
    | ⟨1, _⟩ => rfl
    | ⟨2, _⟩ => rfl
  rw [hsi]
  rfl

/-- On the ENTRY axis the gather reads the result's own entry coordinate: the start index map does not name the axis,
    and it is the one kept axis, paired with the result's last. -/
theorem gather_entry_axis (idx : IVec S32x4096x1 32) (b : Fin 32) (s : Fin 4096) (d : Fin 128) :
    gather_S32000x128_S32x4096x1_S32x4096x128_2_0_n_n_0_2_1128.start (ix3 b s d) idx 1 + gather_S32000x128_S32x4096x1_S32x4096x128_2_0_n_n_0_2_1128.batchCoord (ix3 b s d) 1 + gather_S32000x128_S32x4096x1_S32x4096x128_2_0_n_n_0_2_1128.offCoord (ix3 b s d) 1 = d.val := by
  rw [GatherDims.batchCoord_eq_zero _ _ _ List.not_mem_nil]
  unfold GatherDims.start
  rw [dif_neg (show ¬(1 : Fin 2) ∈ gather_S32000x128_S32x4096x1_S32x4096x128_2_0_n_n_0_2_1128.startIndexMap from by decide)]
  unfold GatherDims.offCoord
  rw [dif_pos (show (1 : Fin 2) ∈ gather_S32000x128_S32x4096x1_S32x4096x128_2_0_n_n_0_2_1128.sKept from by decide)]
  have last : ∀ a : Fin 3, a.val = 2 → ((ix3 b s d) a).val = d.val := fun a ha => by
    obtain ⟨v, hv⟩ := a
    simp only at ha
    subst ha
    rfl
  refine (show ∀ x : ℕ, x = d.val → 0 + 0 + x = d.val from fun x hx => by omega) _ (last _ ?_)
  decide

/-- The row gather read at (b, s, d): the table at the start of token (b, s), read signed and clamped into
    [0, 31999], on the row axis, and at d on the entry axis. -/
theorem gather_rows_apply {α : Type} (x : S32000x128.Idx → α) (idx : IVec S32x4096x1 32) (b : Fin 32) (s : Fin 4096)
    (d : Fin 128) :
    Host.gather gather_S32000x128_S32x4096x1_S32x4096x128_2_0_n_n_0_2_1128 x idx (ix3 b s d)
      = x (ix2 (⟨min (idx (ix3 b s 0)).toInt.toNat 31999, by omega⟩ : Fin 32000) d) := by
  unfold Host.gather
  refine congrArg x (funext fun a => Fin.ext ?_)
  match a with
  | ⟨0, _⟩ => exact gather_row_axis idx b s d
  | ⟨1, _⟩ => exact gather_entry_axis idx b s d

/-! ## The result -/

/-- THE REFERENCE IS THE LOOKUP on ids in range. -/
theorem gathered_eq_lookup (table : FVec Ideal S32000x128 .f32) (h : InRange ids) :
    gathered (F := Ideal) ids table = lookup ids table := by
  funext i
  obtain ⟨b, s, d, rfl⟩ : ∃ (b : Fin 32) (s : Fin 4096) (d : Fin 128), i = ix3 b s d := ⟨i 0, i 1, i 2, eq_ix3 i⟩
  unfold gathered
  rw [select_apply]
  have hin : broadcastInDim S32x4096x128 ![0, 1] bcast_S32x4096_S32x4096x128_0_1 (inside ids) (ix3 b s d) = 1#1 := by
    rw [broadcastInDim_apply _ _ _ (ix3 b s d) (ix2 b s) fun a => by
      match a with
      | ⟨0, _⟩ => rfl
      | ⟨1, _⟩ => rfl]
    exact inside_eq_one ids h _
  rw [hin, select_one, gather_rows_apply, lookup_apply]
  refine congrArg table (congrArg (fun r => ix2 r d) (Fin.ext ?_))
  show min (starts ids (ix3 b s 0)).toInt.toNat 31999 = (rowOf (ids (ix2 b s))).val
  rw [starts_apply, shifted_apply ids h]
  show min (ids (ix2 b s)).toInt.toNat 31999 = (rowOf (ids (ix2 b s))).val
  have hw := h (ix2 b s)
  rw [rowOf_val hw, toInt_of_lt hw]
  omega

end Cert.ReferenceIdeal.RefValue

end
-- ==== Proof.KernelBlocks.lean ====
/-
  The blocks the kernel body is given, in terms of the program's arguments.

  Before the region the ids are viewed as one column of 131072 flat tokens and the table changes float format,
  which is the identity on the extended reals. The grid has 64 token tiles of 2048 tokens times 10 vocabulary
  steps of 3200 ids, the step moving fastest: point t is tile t / 10 at step t % 10. At point t the id block is
  rows 2048 (t / 10) … of the column, the table block is rows 3200 (t % 10) … of the table, and the output block
  is rows 2048 (t / 10) … of the flat result; the output is written back exactly at the last step of each tile.
-/
import proofs.«413346_j58969900974133_2_alg».proof.Proof.Gen.KernelIdeal.Frame
import proofs.«413346_j58969900974133_2_alg».proof.Proof.Spec
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Cert.Embed
open Idealize.ShloMosaic Idealize.ShloMosaic.TcCoe Idealize.SL.Sem Idealize.ShloMosaic.ValueIdx
open Idealize.ShloMosaic.Pipeline (Dat)

/-! ## The arguments, and the arrays the region finds -/

variable (m : (ℓ : Loc nD τ sig) → Buf (Elt Ideal) ℓ)

/-- The token ids the program is given. -/
abbrev idsArg (c : Dev nD) : IVec S32x4096 32 := m ((c : Thread nD τ).loc main_arg0)
/-- The table the program is given. -/
abbrev tableArg (c : Dev nD) : FVec Ideal S32000x128 .f32 := m ((c : Thread nD τ).loc main_arg1)

/-- The id column the region finds holds, at row n, flat token n's id. -/
theorem ids_col (c : Dev nD) (n : Fin 131072) (u : Fin 1) :
    (V m c main_v0 : S131072x1.Idx → BitVec 32) (ix2 n u) = flatId (idsArg m c) n := by
  have e : (V m c main_v0 : S131072x1.Idx → BitVec 32)
      = shapeCast S131072x1 (idsArg m c) shapeCasts_S32x4096_S131072x1 := by
    show StableHlo.after hostOps0 (fun b => m (c, b)) (Proc.devRef .tc main_v0) = _
    after_results
    rfl
  rw [e]
  refine shapeCast_apply _ _ _ _ ?_
  rw [Shape.rowMajor_val_two, Shape.rowMajor_val_two]
  show n.val / 4096 * 4096 + n.val % 4096 = n.val * 1 + u.val
  have := u.isLt
  omega

/-- The table the region finds is the table given: a change of float format is the identity here. -/
theorem table_b (c : Dev nD) : (V m c main_v1 : S32000x128.Idx → EReal) = tableArg m c := by
  show StableHlo.after hostOps0 (fun b => m (c, b)) (Proc.devRef .tc main_v1) = _
  after_results
  rfl

/-! ## The grid -/

/-- The printed index maps, decided over the 640 points: the id and output windows move with the tile, the table
    window with the step; the body's second coordinate is the step. -/
theorem idx_facts : ∀ t : Fin cfg0.N, win0_0.index t (0 : Fin 2) = t.val / 10 ∧ win0_0.index t (1 : Fin 2) = 0
    ∧ win0_1.index t (0 : Fin 2) = t.val % 10 ∧ win0_1.index t (1 : Fin 2) = 0
    ∧ win0_2.index t (0 : Fin 2) = t.val / 10 ∧ win0_2.index t (1 : Fin 2) = 0
    ∧ ((grid0.coords t) 1).val = t.val % 10 :=
  (by decide +kernel : ∀ t : Fin grid0.N, _)

/-- The output block is written back exactly at the last step of a tile. -/
theorem flush_iff : ∀ t : Fin cfg0.N, (cfg0.win 2).flush t = true ↔ t.val % 10 = 9 :=
  (by decide +kernel : ∀ t : Fin grid0.N, _)

/-! ## The input blocks at a point -/

/-- The id block at point t. -/
abbrev idsBlk (c : Dev nD) (t : Fin cfg0.N) : IVec S2048x1 32 := iblk m c 0 t
/-- The table block at point t. -/
abbrev tblBlk (c : Dev nD) (t : Fin cfg0.N) : FVec Ideal S3200x128 .bf16 := iblk m c 1 t

/-- Row r of the id block at point t is the id of flat token 2048 (t / 10) + r. -/
theorem ids_block (c : Dev nD) (t : Fin cfg0.N) (r : Fin 2048) (u : Fin 1)
    (h : 2048 * (t.val / 10) + r.val < 131072) :
    idsBlk m c t (ix2 r u) = flatId (idsArg m c) ⟨2048 * (t.val / 10) + r.val, h⟩ := by
  obtain ⟨e0, e1, -⟩ := idx_facts t
  show (V m c main_v0 : S131072x1.Idx → BitVec 32) (((cfg0.win 0).blk t).view.emb (ix2 r u)) = _
  have he : ((cfg0.win 0).blk t).view.emb (ix2 r u)
      = ix2 (⟨2048 * (t.val / 10) + r.val, h⟩ : Fin 131072) (0 : Fin 1) := by
    funext a; apply Fin.ext
    match a with
    | ⟨0, _⟩ =>
      show win0_0.index t (0 : Fin 2) * 2048 + 1 * r.val = 2048 * (t.val / 10) + r.val
      omega
    | ⟨1, _⟩ =>
      show win0_0.index t (1 : Fin 2) * 1 + 1 * u.val = 0
      have := u.isLt
      omega
  rw [he, ids_col]

/-- Entry (j, d) of the table block at point t is the table's entry at row 3200 (t % 10) + j. -/
theorem tbl_block (c : Dev nD) (t : Fin cfg0.N) (j : Fin 3200) (d : Fin 128)
    (h : 3200 * (t.val % 10) + j.val < 32000) :
    tblBlk m c t (ix2 j d) = tableArg m c (ix2 (⟨3200 * (t.val % 10) + j.val, h⟩ : Fin 32000) d) := by
  obtain ⟨-, -, e2, e3, -⟩ := idx_facts t
  show (V m c main_v1 : S32000x128.Idx → EReal) (((cfg0.win 1).blk t).view.emb (ix2 j d)) = _
  have he : ((cfg0.win 1).blk t).view.emb (ix2 j d)
      = ix2 (⟨3200 * (t.val % 10) + j.val, h⟩ : Fin 32000) d := by
    funext a; apply Fin.ext
    match a with
    | ⟨0, _⟩ =>
      show win0_1.index t (0 : Fin 2) * 3200 + 1 * j.val = 3200 * (t.val % 10) + j.val
      omega
    | ⟨1, _⟩ =>
      show win0_1.index t (1 : Fin 2) * 128 + 1 * d.val = d.val
      omega
  rw [he, table_b]

end Cert.KernelIdeal.Blocks

end
-- ==== Proof.KernelPieces.lean ====
/-
  What each control case of the kernel body leaves behind, as one arithmetic term.

  The body keeps a [2048, 128] accumulator in scratch memory across the ten vocabulary steps of a token tile. At the
  first step it stores zeros into the accumulator; at every step it adds to the accumulator the product of the
  step's [2048, 3200] indicator block with the step's [3200, 128] block of the table; at the last step it copies
  the accumulator to the output block. The generated run records, per case, the stores the body made as a list
  of pieces. Read back, each list is the step's update `k0_pay2` of the accumulator the step started from: the
  zeros `k0_pay1` at a first step (the load after the zeroing store reads what that store wrote), the contents
  the step before left at the others; and at the last step the output block is that same updated accumulator (its
  load follows the accumulator's store).
-/
import proofs.«413346_j58969900974133_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

/-- The whole-block rectangles sit at offset zero. -/
theorem hz : (![0, 0] : Fin 2 → Nat) = fun _ => 0 := funext fun a => by fin_cases a <;> rfl

/-- FIRST STEP of a tile: the accumulator ends at the update of the zeros. -/
theorem scratch_first (c : Dev nD) (i : grid0.Coords) (arg2 : Memref sig .tc .vmem S2048x1 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1 .i32) (x1 : Vec F S3200x128 .bf16) :
    sout0_A_0 c i arg2 harg2 arg3 harg3 arg4 harg4 arg5 harg5 hc0 hc1 x0 x1 = k0_pay2 i x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S2048x128) hz, View.readCov_unit_zero (S := S2048x128) _ hz]
  simp only [View.readAt_eq_ld, harg2.read_unread, harg3.read_unread, View.ld_unit_zero (S := S2048x1) hz,
    View.ld_unit_zero (S := S3200x128) hz]

/-- MIDDLE STEP: the accumulator ends at the update of what the step before left. -/
theorem scratch_middle (c : Dev nD) (i : grid0.Coords) (arg2 : Memref sig .tc .vmem S2048x1 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1 .i32) (x1 : Vec F S3200x128 .bf16) (xs0 : Vec F S2048x128 .f32) :
    sout0_B_0 c i arg2 harg2 arg3 harg3 arg4 harg4 arg5 harg5 hc0 hc1 x0 x1 xs0 = k0_pay2 i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S2048x1) hz,
    View.ld_unit_zero (S := S3200x128) hz, View.ld_unit_zero (S := S2048x128) hz]

/-- LAST STEP: the accumulator ends at the update of what the step before left, -/
theorem scratch_last (c : Dev nD) (i : grid0.Coords) (arg2 : Memref sig .tc .vmem S2048x1 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1 .i32) (x1 : Vec F S3200x128 .bf16) (xs0 : Vec F S2048x128 .f32) :
    sout0_C_0 c i arg2 harg2 arg3 harg3 arg4 harg4 arg5 harg5 hc0 hc1 x0 x1 xs0 = k0_pay2 i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S2048x1) hz,
    View.ld_unit_zero (S := S3200x128) hz, View.ld_unit_zero (S := S2048x128) hz]

/-- and the output block is that same updated accumulator. -/
theorem output_last (c : Dev nD) (i : grid0.Coords) (arg2 : Memref sig .tc .vmem S2048x1 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1 .i32) (x1 : Vec F S3200x128 .bf16) (xs0 : Vec F S2048x128 .f32) :
    out0_C_2 c i arg2 harg2 arg3 harg3 arg4 harg4 arg5 harg5 hc0 hc1 x0 x1 xs0 = k0_pay2 i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S2048x1) hz,
    View.ld_unit_zero (S := S3200x128) hz, View.ld_unit_zero (S := S2048x128) hz, View.readCov_unit_zero (S := S2048x128) _ hz]

end Cert.KernelIdeal.Pieces

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KernelStep.lean ====
/-
  One vocabulary step of the accumulation, read at an entry.

  At step v of a token tile the body forms, for the tile's 2048 tokens and the step's 3200 vocabulary ids
  3200 v + j, the indicator that token r's id IS that vocabulary id (a comparison of 32-bit words, widened and
  converted to a float: exactly 1 or 0), multiplies the [2048, 3200] indicator block with the step's [3200, 128]
  block of the table, and adds the product to the accumulator. Changes of float format are the identity on the
  extended reals. So at entry (r, d) the step adds to the accumulator the sum over j of indicator(r, j) times the
  table block's entry (j, d).

  At most one j has a nonzero indicator, and a zero indicator annihilates its term whatever the table holds
  (0 * x = 0 on the extended reals, at the infinities too), so the sum is the table block's entry at the matching j
  when token r's id falls in the step's range of ids, and zero when it does not.
-/
import proofs.«413346_j58969900974133_2_alg».proof.Proof.Gen.KernelIdeal.Skeleton
import proofs.«413346_j58969900974133_2_alg».proof.Proof.LibKeepdims
import Idealize.ShloMosaic.Lib.ValueIdx
import Idealize.ShloMosaic.Lib.Pipeline.Value
import Idealize.ShloMosaic.Lib.Affine
import Idealize.ShloMosaic.PureOps.Ideal.Laws

noncomputable section

namespace Cert.KernelIdeal.Step

open Cert.KernelIdeal Cert.KernelIdeal.Gen
open Idealize.ShloMosaic Idealize.ShloMosaic.ValueIdx Idealize.ShloMosaic.Keepdims

/-! ## The product's operand positions -/

/-- The indicator block times the table block: rows by the contraction over the step's 3200 ids. -/
abbrev D : DotDims S2048x3200 S3200x128 S2048x128 := dot_S2048x3200_S3200x128_S2048x128_1_0_0_1_n_n

theorem lhs_row (j : S2048x128.Idx) (k : D.contr.Idx) : (D.lhsIdx j k 0 : ℕ) = j 0 := by
  simp [DotDims.lhsIdx, D, dot_S2048x3200_S3200x128_S2048x128_1_0_0_1_n_n]; rfl
theorem lhs_contr (j : S2048x128.Idx) (k : D.contr.Idx) : (D.lhsIdx j k 1 : ℕ) = k ⟨0, by decide⟩ := by
  simp [DotDims.lhsIdx, D, dot_S2048x3200_S3200x128_S2048x128_1_0_0_1_n_n]; rfl
theorem rhs_contr (j : S2048x128.Idx) (k : D.contr.Idx) : (D.rhsIdx j k 0 : ℕ) = k ⟨0, by decide⟩ := by
  simp [DotDims.rhsIdx, D, dot_S2048x3200_S3200x128_S2048x128_1_0_0_1_n_n]; rfl
theorem rhs_col (j : S2048x128.Idx) (k : D.contr.Idx) : (D.rhsIdx j k 1 : ℕ) = j 1 := by
  simp [DotDims.rhsIdx, D, dot_S2048x3200_S3200x128_S2048x128_1_0_0_1_n_n]; rfl

/-- At result entry (r, d) and contraction position j the left operand is read at (r, j). -/
theorem lhs_at (r : Fin 2048) (d : Fin 128) (j : Fin 3200) :
    D.lhsIdx (ix2 r d) ((contrEquiv1 D 3200 rfl rfl).symm j) = ix2 r j := by
  funext a; refine Fin.ext ?_
  match a with
  | ⟨0, _⟩ => exact lhs_row _ _
  | ⟨1, _⟩ => exact (lhs_contr _ _).trans (contrEquiv1_symm_val D 3200 rfl rfl j)

/-- and the right operand at (j, d). -/
theorem rhs_at (r : Fin 2048) (d : Fin 128) (j : Fin 3200) :
    D.rhsIdx (ix2 r d) ((contrEquiv1 D 3200 rfl rfl).symm j) = ix2 j d := by
  funext a; refine Fin.ext ?_
  match a with
  | ⟨0, _⟩ => exact (rhs_contr _ _).trans (contrEquiv1_symm_val D 3200 rfl rfl j)
  | ⟨1, _⟩ => exact rhs_col _ _

/-! ## The indicator -/

/-- A row `[1, b]` broadcast to `[a, b]` reads, at (r, c), the row at column c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- The vocabulary id of column j of the step's tile, as the body computes it: the column's position plus 3200 times
    the step, in 32-bit words. -/
def vocabWord (i : grid0.Coords) (j : Fin 3200) : BitVec 32 :=
  IntOp.addi (BitVec.ofNat 32 j.val) (IntOp.muli (BitVec.ofNat 32 (i 1).val) 3200#32)

/-- A compared bit, widened to a word and converted to a float, is exactly one or zero. -/
theorem indicator_val (a b : BitVec 32) :
    ((((IntOp.cmpi .eq a b).setWidth 32).toInt : ℝ) : EReal) = if a = b then 1 else 0 := by
  by_cases h : a = b
  · rw [if_pos h, IntOp.cmpi_eq.mpr h]
    have : ((1#1 : BitVec 1).setWidth 32).toInt = 1 := by decide
    rw [this]; norm_num
  · rw [if_neg h, eq_zero_of_ne_one (fun hc => h (IntOp.cmpi_eq.mp hc))]
    have : ((0#1 : BitVec 1).setWidth 32).toInt = 0 := by decide
    rw [this]; norm_num

/-- The indicator block at (r, j): whether token r's id is column j's vocabulary id. -/
theorem indicator_apply (i : grid0.Coords) (ids : IVec S2048x1 32) (r : Fin 2048) (j : Fin 3200) :
    (truncf .bf16 (sitofp (F := Ideal) .f32 (extui 32 (cmpi .eq
        (broadcastTo S2048x3200 (shapeCast S2048x1 ids shapeCasts_S2048x1_S2048x1) broadcasts_S2048x1_S2048x3200)
        (broadcastTo S2048x3200 (addi (iota .tc S1x3200 32 [1] iota_S1x3200_d1_w32)
          (broadcast S1x3200 (Scalar.muli (BitVec.ofNat 32 (i 1).val) 3200#32))) broadcasts_S1x3200_S2048x3200))
        natLt_1_32)) bitsLt_bf16_f32 : FVec Ideal S2048x3200 .bf16) (ix2 r j)
      = if ids (ix2 r 0) = vocabWord i j then (1 : EReal) else 0 := by
  rw [truncf_apply, sitofp_apply, extui_apply]
  show ((((IntOp.cmpi .eq
      (broadcastTo S2048x3200 (shapeCast S2048x1 ids shapeCasts_S2048x1_S2048x1) broadcasts_S2048x1_S2048x3200 (ix2 r j))
      (broadcastTo S2048x3200 (addi (iota .tc S1x3200 32 [1] iota_S1x3200_d1_w32)
          (broadcast S1x3200 (Scalar.muli (BitVec.ofNat 32 (i 1).val) 3200#32))) broadcasts_S1x3200_S2048x3200 (ix2 r j))).setWidth 32).toInt : ℝ) : EReal) = _
  rw [broadcastTo_a1_ab_apply, broadcastTo_1b_ab_apply, shapeCast_self, indicator_val]
  have e : addi (iota .tc S1x3200 32 [1] iota_S1x3200_d1_w32)
      (broadcast S1x3200 (Scalar.muli (BitVec.ofNat 32 (i 1).val) 3200#32)) (ix2 (0 : Fin 1) j) = vocabWord i j := by
    show IntOp.addi (iota .tc S1x3200 32 [1] iota_S1x3200_d1_w32 (ix2 (0 : Fin 1) j)) _ = _
    rw [iota_single_apply]
    rfl
  rw [e]

/-- THE STEP AT AN ENTRY: the accumulator's entry plus the sum over the step's ids of indicator times table entry. -/
theorem step_apply (i : grid0.Coords) (ids : IVec S2048x1 32) (tbl : FVec Ideal S3200x128 .bf16)
    (acc : FVec Ideal S2048x128 .f32) (r : Fin 2048) (d : Fin 128) :
    k0_pay2 (F := Ideal) i ids tbl acc (ix2 r d)
      = acc (ix2 r d) + ∑ j : Fin 3200, (if ids (ix2 r 0) = vocabWord i j then (1 : EReal) else 0) * tbl (ix2 j d) := by
  unfold k0_pay2
  dsimp only
  rw [shapeCast_self]
  show (acc (ix2 r d) : EReal) + FloatOps.matmul (F := Ideal) D none _ _ (constant S2048x128 .f32 0x00000000#32) (ix2 r d) = _
  rw [Ideal.matmul_constant_zero_apply, ← Equiv.sum_comp (contrEquiv1 D 3200 rfl rfl).symm]
  refine congrArg (acc (ix2 r d) + ·) (Finset.sum_congr rfl fun j _ => ?_)
  rw [lhs_at, rhs_at, indicator_apply, shapeCast_self]

/-! ## The sum has at most one term -/

/-- Column j of step v's tile is vocabulary id 3200 v + j: the word arithmetic does not wrap. -/
theorem vocabWord_toNat (i : grid0.Coords) (hv : (i 1).val < 10) (j : Fin 3200) :
    (vocabWord i j).toNat = 3200 * (i 1).val + j.val := by
  unfold vocabWord IntOp.addi IntOp.muli
  simp only [BitVec.toNat_add, BitVec.toNat_mul, BitVec.toNat_ofNat]
  have := j.isLt
  omega

/-- THE STEP'S SUM FOR ONE TOKEN: over the step's 3200 ids the indicator is one at most once, so the sum of
    indicator times entry is the entry at the matching column when the token's id is among the step's ids, and zero
    otherwise, whatever the entries are. -/
theorem onehot_sum (i : grid0.Coords) (hv : (i 1).val < 10) (w : BitVec 32) (f : Fin 3200 → EReal) :
    ∑ j : Fin 3200, (if w = vocabWord i j then (1 : EReal) else 0) * f j
      = if h : 3200 * (i 1).val ≤ w.toNat ∧ w.toNat < 3200 * (i 1).val + 3200
          then f ⟨w.toNat - 3200 * (i 1).val, by omega⟩ else 0 := by
  split
  · rename_i h
    rw [Finset.sum_eq_single (⟨w.toNat - 3200 * (i 1).val, by omega⟩ : Fin 3200)]
    · rw [if_pos (BitVec.eq_of_toNat_eq (by
        rw [vocabWord_toNat i hv]
        show w.toNat = 3200 * (i 1).val + (w.toNat - 3200 * (i 1).val)
        omega)), one_mul]
    · intro j _ hj
      rw [if_neg (fun e => hj (Fin.ext (by
        have e' := congrArg BitVec.toNat e
        rw [vocabWord_toNat i hv] at e'
        show j.val = w.toNat - 3200 * (i 1).val
        omega))), zero_mul]
    · intro h'
      exact absurd (Finset.mem_univ _) h'
  · rename_i h
    refine Finset.sum_eq_zero fun j _ => ?_
    rw [if_neg (fun e => h (by
      have e' := congrArg BitVec.toNat e
      rw [vocabWord_toNat i hv] at e'
      have := j.isLt
      omega)), zero_mul]

end Cert.KernelIdeal.Step

end
-- ==== Proof.KernelInvariant.lean ====
/-
  The accumulator after every grid point.

  Within token tile T the ten steps scan the vocabulary ids 0 … 3199, 3200 … 6399, and so on. After step v the
  accumulator's entry (r, d) is the table's entry d of the row named by token 2048 T + r when that token's id is
  below 3200 (v + 1), that is, already scanned, and zero otherwise: each step adds the entry exactly when the id
  lies among the step's 3200 ids, and the first step starts from zeros. By induction over the 640 points, case by
  case (first, middle and last step of a tile). After the last step all 32000 ids are scanned, so for ids in range
  the accumulator, and with it the output block, is the lookup's rows for the tile.
-/
import proofs.«413346_j58969900974133_2_alg».proof.Proof.KernelBlocks
import proofs.«413346_j58969900974133_2_alg».proof.Proof.KernelPieces
import proofs.«413346_j58969900974133_2_alg».proof.Proof.KernelStep

noncomputable section

namespace Cert.KernelIdeal.Invariant

open Cert.KernelIdeal Cert.KernelIdeal.Gen Cert.KernelIdeal.Blocks Cert.KernelIdeal.Pieces Cert.KernelIdeal.Step Cert.Embed
open Idealize.ShloMosaic Idealize.ShloMosaic.TcCoe Idealize.SL.Sem Idealize.ShloMosaic.ValueIdx

variable (m : (ℓ : Loc nD τ sig) → Buf (Elt Ideal) ℓ)

/-- The grid has 640 points, so a tile's tokens are flat tokens. -/
theorem tok_lt (t : Fin cfg0.N) (r : Fin 2048) : 2048 * (t.val / 10) + r.val < 131072 := by
  have hN : t.val < 640 := lt_of_lt_of_eq t.isLt (show cfg0.N = 640 from N_0)
  have := r.isLt
  omega

/-- The id of row r's token at point t: flat token 2048 (t / 10) + r. -/
def tok (c : Dev nD) (t : Fin cfg0.N) (r : Fin 2048) : BitVec 32 :=
  flatId (idsArg m c) ⟨2048 * (t.val / 10) + r.val, tok_lt t r⟩

/-- THE ACCUMULATOR AFTER POINT t: entry (r, d) is the table's entry d of the row token r names once the token's id
    has been scanned (it is below 3200 (t % 10) + 3200), zero before. -/
def accAfter (c : Dev nD) (t : Fin cfg0.N) : FVec Ideal S2048x128 .f32 :=
  fun y => scanned (tok m c t (y 0)) (3200 * (t.val % 10) + 3200) (tableArg m c (ix2 (rowOf (tok m c t (y 0))) (y 1)))

/-! ## One step -/

/-- ONE STEP at point t, for ids in range: the accumulator's entry plus the table's entry for the token exactly when
    the token's id is among the step's ids. -/
theorem step_entry (c : Dev nD) (hin : InRange (idsArg m c)) (t : Fin cfg0.N) (acc : FVec Ideal S2048x128 .f32)
    (r : Fin 2048) (d : Fin 128) :
    k0_pay2 (F := Ideal) (grid0.coords t) (idsBlk m c t) (tblBlk m c t) acc (ix2 r d)
      = acc (ix2 r d) + (if 3200 * (t.val % 10) ≤ (tok m c t r).toNat ∧ (tok m c t r).toNat < 3200 * (t.val % 10) + 3200
          then tableArg m c (ix2 (rowOf (tok m c t r)) d) else 0) := by
  obtain ⟨-, -, -, -, -, -, e6⟩ := idx_facts t
  have hv : ((grid0.coords t) 1).val < 10 := by rw [e6]; exact Nat.mod_lt _ (by norm_num)
  rw [step_apply, onehot_sum (grid0.coords t) hv, ids_block m c t r 0 (tok_lt t r)]
  refine congrArg (acc (ix2 r d) + ·) ?_
  show (if h : 3200 * ((grid0.coords t) 1).val ≤ (tok m c t r).toNat ∧ (tok m c t r).toNat < 3200 * ((grid0.coords t) 1).val + 3200
      then tblBlk m c t (ix2 (⟨(tok m c t r).toNat - 3200 * ((grid0.coords t) 1).val, by omega⟩ : Fin 3200) d) else 0) = _
  have hw : (tok m c t r).toNat < 32000 := hin _
  by_cases h : 3200 * (t.val % 10) ≤ (tok m c t r).toNat ∧ (tok m c t r).toNat < 3200 * (t.val % 10) + 3200
  · rw [dif_pos (by rw [e6]; exact h), if_pos h,
      tbl_block m c t _ d (by show 3200 * (t.val % 10) + ((tok m c t r).toNat - 3200 * ((grid0.coords t) 1).val) < 32000; omega)]
    refine congrArg (tableArg m c) (congrArg (fun q => ix2 q d) (Fin.ext ?_))
    show 3200 * (t.val % 10) + ((tok m c t r).toNat - 3200 * ((grid0.coords t) 1).val) = (rowOf (tok m c t r)).val
    rw [rowOf_val hw]
    omega
  · rw [dif_neg (by rw [e6]; exact h), if_neg h]

/-- A tile's FIRST step, from zeros, leaves the accumulator scanned over the first 3200 ids. -/
theorem step_first (c : Dev nD) (hin : InRange (idsArg m c)) (t : Fin cfg0.N) (h0 : t.val % 10 = 0) :
    k0_pay2 (F := Ideal) (grid0.coords t) (idsBlk m c t) (tblBlk m c t) (k0_pay1 (F := Ideal)) = accAfter m c t := by
  funext y
  obtain ⟨r, d, rfl⟩ : ∃ (r : Fin 2048) (d : Fin 128), y = ix2 r d := ⟨y 0, y 1, eq_ix2 y⟩
  rw [step_entry m c hin t]
  have hz : k0_pay1 (F := Ideal) (ix2 r d) = scanned (tok m c t r) 0 (tableArg m c (ix2 (rowOf (tok m c t r)) d)) := by
    rw [scanned_zero]
    show Ideal.ofBits .f32 0x00000000#32 = 0
    exact Ideal.ofBits_zero_f32
  rw [hz]
  show _ = scanned (tok m c t r) (3200 * (t.val % 10) + 3200) _
  rw [h0]
  exact scanned_step _ 0 _

/-- A LATER step takes the accumulator of the point before to this point's. -/
theorem step_next (c : Dev nD) (hin : InRange (idsArg m c)) (t s : Fin cfg0.N) (h0 : ¬t.val % 10 = 0)
    (hs : s.val = t.val - 1) :
    k0_pay2 (F := Ideal) (grid0.coords t) (idsBlk m c t) (tblBlk m c t) (accAfter m c s) = accAfter m c t := by
  funext y
  obtain ⟨r, d, rfl⟩ : ∃ (r : Fin 2048) (d : Fin 128), y = ix2 r d := ⟨y 0, y 1, eq_ix2 y⟩
  rw [step_entry m c hin t]
  have hdiv : s.val / 10 = t.val / 10 := by omega
  have hmod : s.val % 10 + 1 = t.val % 10 := by omega
  have htok : tok m c s r = tok m c t r := by
    unfold tok
    exact congrArg (flatId (idsArg m c)) (Fin.ext (by show 2048 * (s.val / 10) + r.val = 2048 * (t.val / 10) + r.val; rw [hdiv]))
  show scanned (tok m c s r) (3200 * (s.val % 10) + 3200) (tableArg m c (ix2 (rowOf (tok m c s r)) d)) + _
    = scanned (tok m c t r) (3200 * (t.val % 10) + 3200) (tableArg m c (ix2 (rowOf (tok m c t r)) d))
  rw [htok, show 3200 * (s.val % 10) + 3200 = 3200 * (t.val % 10) from by omega]
  exact scanned_step _ _ _

/-! ## Every point -/

/-- THE INVARIANT: after every point the carried scratch holds `accAfter`. -/
theorem scratch_after (c : Dev nD) (hin : InRange (idsArg m c)) :
    ∀ (n : ℕ) (hn : n < cfg0.N), (outsAt0 m c n hn).2 = accAfter m c ⟨n, hn⟩ := by
  intro n
  induction n with
  | zero =>
    intro hn
    rw [outsAt0_A m c ⟨0, hn⟩ (Nat.zero_mod _) (show ¬(0 % 10 = 9) from by decide)]
    dsimp only
    exact (scratch_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (by decide : ¬(0 % 10 = 9)) ((hcond0_1 ⟨0, hn⟩).mp h)) (iblk m c 0 ⟨0, hn⟩) (iblk m c 1 ⟨0, hn⟩)).trans
      (step_first m c hin ⟨0, hn⟩ (Nat.zero_mod _))
  | succ k ih =>
    intro hn
    have hN : k + 1 < 640 := lt_of_lt_of_eq hn (show cfg0.N = 640 from N_0)
    have hk : k < cfg0.N := Nat.lt_of_succ_lt hn
    by_cases h0 : (k + 1) % 10 = 0
    · have h1 : ¬(k + 1) % 10 = 9 := by omega
      rw [outsAt0_A m c ⟨k + 1, hn⟩ h0 h1]
      dsimp only
      exact (scratch_first (F := Ideal) c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) scM0_0 (Memref.isWhole_whole _) ((hcond0_0 ⟨k + 1, hn⟩).mpr h0) (fun h => h1 ((hcond0_1 ⟨k + 1, hn⟩).mp h)) (iblk m c 0 ⟨k + 1, hn⟩) (iblk m c 1 ⟨k + 1, hn⟩)).trans
        (step_first m c hin ⟨k + 1, hn⟩ h0)
    · by_cases h1 : (k + 1) % 10 = 9
      · rw [outsAt0_C m c ⟨k + 1, hn⟩ h0 h1]
        dsimp only
        refine (scratch_last (F := Ideal) c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) scM0_0 (Memref.isWhole_whole _) (fun h => h0 ((hcond0_0 ⟨k + 1, hn⟩).mp h)) ((hcond0_1 ⟨k + 1, hn⟩).mpr h1) (iblk m c 0 ⟨k + 1, hn⟩) (iblk m c 1 ⟨k + 1, hn⟩) (outsAt0 m c (k + 1 - 1) (Nat.lt_of_le_of_lt (Nat.sub_le _ _) hn)).2).trans ?_
        rw [show (outsAt0 m c (k + 1 - 1) (Nat.lt_of_le_of_lt (Nat.sub_le _ _) hn)).2 = accAfter m c ⟨k, hk⟩ from ih hk]
        exact step_next m c hin ⟨k + 1, hn⟩ ⟨k, hk⟩ h0 rfl
      · rw [outsAt0_B m c ⟨k + 1, hn⟩ h0 h1]
        dsimp only
        refine (scratch_middle (F := Ideal) c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) scM0_0 (Memref.isWhole_whole _) (fun h => h0 ((hcond0_0 ⟨k + 1, hn⟩).mp h)) (fun h => h1 ((hcond0_1 ⟨k + 1, hn⟩).mp h)) (iblk m c 0 ⟨k + 1, hn⟩) (iblk m c 1 ⟨k + 1, hn⟩) (outsAt0 m c (k + 1 - 1) (Nat.lt_of_le_of_lt (Nat.sub_le _ _) hn)).2).trans ?_
        rw [show (outsAt0 m c (k + 1 - 1) (Nat.lt_of_le_of_lt (Nat.sub_le _ _) hn)).2 = accAfter m c ⟨k, hk⟩ from ih hk]
        exact step_next m c hin ⟨k + 1, hn⟩ ⟨k, hk⟩ h0 rfl

/-- At a tile's LAST step the output block is the accumulator. -/
theorem output_after (c : Dev nD) (hin : InRange (idsArg m c)) (t : Fin cfg0.N) (h1 : t.val % 10 = 9) :
    (outsAt0 m c t.val t.isLt).1 = accAfter m c t := by
  have h0 : ¬t.val % 10 = 0 := by omega
  have hpos : 0 < t.val := by omega
  have hk : t.val - 1 < cfg0.N := Nat.lt_of_le_of_lt (Nat.sub_le _ _) t.isLt
  rw [outsAt0_C m c t h0 h1]
  dsimp only
  refine (output_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans ?_
  rw [scratch_after m c hin (t.val - 1) hk]
  exact step_next m c hin t ⟨t.val - 1, hk⟩ h0 rfl

end Cert.KernelIdeal.Invariant

end
-- ==== Proof.KernelRun.lean ====
/-
  The kernel program's run, read back: its result is the lookup.

  The output block is written back to the flat [131072, 128] result only at the last step of each token tile, and
  then it holds the accumulator after all 32000 ids have been scanned: for ids in range, the lookup's rows for the
  tile's 2048 tokens. The 64 tiles' blocks cover the flat result, so after the region the flat result is the flat
  lookup; the one operation after the region views it [32, 4096, 128], flat token 4096 b + s becoming token (b, s),
  which gives the lookup. The arguments are no window's array and no host operation writes them.
-/
import proofs.«413346_j58969900974133_2_alg».proof.Proof.KernelInvariant

noncomputable section

namespace Cert.KernelIdeal.Run

open Cert.KernelIdeal Cert.KernelIdeal.Gen Cert.KernelIdeal.Blocks Cert.KernelIdeal.Invariant Cert.Embed
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a tile's last step writes back -/

/-- WHAT POINT t WRITES BACK, when it writes back at all, is its block of the flat lookup. -/
theorem flushed_eq (c : Dev nD) (hin : InRange (idsArg m c)) (t : Fin cfg0.N) (hf : (cfg0.win 2).flush t = true) :
    (dats m 0 c).flushed 2 t
      = ((cfg0.win 2).blk t).view.read (Elt Ideal) (lookupFlat (idsArg m c) (tableArg m c)) := by
  have h1 : t.val % 10 = 9 := (flush_iff t).mp hf
  obtain ⟨-, -, -, -, e4, e5, -⟩ := idx_facts t
  show (cfg0.win 2).cut (grid0.coords t) ((dats m 0 c).after 2 t) = _
  rw [after0_2, output_after m c hin t h1]
  funext y
  obtain ⟨r, d, rfl⟩ : ∃ (r : Fin 2048) (d : Fin 128), y = ix2 r d := ⟨y 0, y 1, eq_ix2 y⟩
  show accAfter m c t (ix2 r d) = lookupFlat (idsArg m c) (tableArg m c) (((cfg0.win 2).blk t).view.emb (ix2 r d))
  have he : ((cfg0.win 2).blk t).view.emb (ix2 r d)
      = ix2 (⟨2048 * (t.val / 10) + r.val, tok_lt t r⟩ : Fin 131072) d := by
    funext a; apply Fin.ext
    match a with
    | ⟨0, _⟩ =>
      show win0_2.index t (0 : Fin 2) * 2048 + 1 * r.val = 2048 * (t.val / 10) + r.val
      omega
    | ⟨1, _⟩ =>
      show win0_2.index t (1 : Fin 2) * 128 + 1 * d.val = d.val
      omega
  rw [he, lookupFlat_apply]
  show scanned (tok m c t r) (3200 * (t.val % 10) + 3200) (tableArg m c (ix2 (rowOf (tok m c t r)) d))
    = tableArg m c (ix2 (rowOf (tok m c t r)) d)
  rw [h1]
  exact scanned_all (hin _) _

/-! ## The blocks cover the flat result -/

/-- An index of the flat result is in point t's output block iff each coordinate is in the block's range. -/
theorem mem_blk (t : Fin cfg0.N) (i : S131072x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v2).slice (win0_2.rect t)).set ↔ _
  rw [View.set_slice_whole, Rect.mem_set_unit]
  exact Iff.rfl

/-- Flat row n is written back at the last step of tile n / 2048. -/
theorem cover (i : S131072x128.Idx) :
    ∃ t : Fin cfg0.N, (cfg0.win 2).flush t = true ∧ i ∈ ((cfg0.win 2).blk t).view.set := by
  have hi0 : (i 0).val < 131072 := (i 0).isLt
  have hi1 : (i 1).val < 128 := (i 1).isLt
  have hN : cfg0.N = 640 := N_0
  have hlt : 10 * ((i 0).val / 2048) + 9 < cfg0.N := by rw [hN]; omega
  refine ⟨⟨10 * ((i 0).val / 2048) + 9, hlt⟩, (flush_iff _).mpr (by show (10 * ((i 0).val / 2048) + 9) % 10 = 9; omega), ?_⟩
  obtain ⟨-, -, -, -, e4, e5, -⟩ := idx_facts ⟨10 * ((i 0).val / 2048) + 9, hlt⟩
  have e4' : win0_2.index ⟨10 * ((i 0).val / 2048) + 9, hlt⟩ (0 : Fin 2) = (i 0).val / 2048 := by
    rw [e4]; show (10 * ((i 0).val / 2048) + 9) / 10 = (i 0).val / 2048; omega
  rw [mem_blk]
  intro a
  match a with
  | ⟨0, _⟩ =>
    show win0_2.index ⟨10 * ((i 0).val / 2048) + 9, hlt⟩ (0 : Fin 2) * 2048 ≤ (i 0).val
      ∧ (i 0).val < win0_2.index ⟨10 * ((i 0).val / 2048) + 9, hlt⟩ (0 : Fin 2) * 2048 + 2048
    rw [e4']
    omega
  | ⟨1, _⟩ =>
    show win0_2.index ⟨10 * ((i 0).val / 2048) + 9, hlt⟩ (1 : Fin 2) * 128 ≤ (i 1).val
      ∧ (i 1).val < win0_2.index ⟨10 * ((i 0).val / 2048) + 9, hlt⟩ (1 : Fin 2) * 128 + 128
    rw [e5]
    omega

/-- THE FLAT RESULT after the region is the flat lookup. -/
theorem flat_result (c : Dev nD) (hin : InRange (idsArg m c)) :
    (dats m 0 c).arrAt 2 cfg0.N = lookupFlat (idsArg m c) (tableArg m c) :=
  (dats m 0 c).arrAt_eq_of_cover 2 _ (fun t hf => flushed_eq m c hin t hf) (cover ·)

/-! ## The view after the region, and the run -/

/-- The flat lookup viewed [32, 4096, 128] is the lookup. -/
theorem view_flat (ids : IVec S32x4096 32) (table : FVec Ideal S32000x128 .f32) :
    shapeCast S32x4096x128 (lookupFlat ids table) shapeCasts_S131072x128_S32x4096x128 = lookup ids table := by
  funext i
  obtain ⟨b, s, d, rfl⟩ : ∃ (b : Fin 32) (s : Fin 4096) (d : Fin 128), i = ix3 b s d := ⟨i 0, i 1, i 2, eq_ix3 i⟩
  have hbs : 4096 * b.val + s.val < 131072 := by have := b.isLt; have := s.isLt; omega
  refine (shapeCast_apply _ _ _ (ix2 (⟨4096 * b.val + s.val, hbs⟩ : Fin 131072) d) ?_).trans ?_
  · rw [Shape.rowMajor_val_two, Shape.rowMajor_val_three]
    show (4096 * b.val + s.val) * 128 + d.val = (b.val * 4096 + s.val) * 128 + d.val
    omega
  · rw [lookupFlat_apply, flatId_mk, lookup_apply]

/-- What the result buffer holds after the operation that follows the region. -/
theorem result_eq (c : Dev nD) (hin : InRange (idsArg m c)) :
    (Pipeline.afterTail₀ cfgs (dats m) 0 (V0 m) [hostOps1] c main_v3 : S32x4096x128.Idx → EReal)
      = lookup (idsArg m c) (tableArg m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = lookupFlat (idsArg m c) (tableArg m c) :=
    (Pipeline.withArrays_arr spec0 launch0.win.arr_inj c _ _ 2).trans (flat_result m c hin)
  refine Eq.trans ?_ (view_flat (idsArg m c) (tableArg m c))
  show shapeCast S32x4096x128 (Pipeline.withArrays (cfgs 0).spec c (V0 m c)
      (fun w => (dats m 0 c).arrAt w (cfgs 0).N) (Proc.devRef .tc main_v2)) shapeCasts_S131072x128_S32x4096x128 = _
  exact congrArg (fun x => shapeCast S32x4096x128 x shapeCasts_S131072x128_S32x4096x128) hw

/-- THE RUN: for ids in range on every core, every weakly fair execution of the kernel program terminates with the
    result at the lookup of the arguments, and the arguments unchanged. -/
theorem run (hin : ∀ c : Dev nD, InRange (idsArg m c)) :
    θ_run defs (onTc (τ := τ) (main (F := Ideal))) ⟨m, fun _ => 0, ρ⟩ fun r => ∀ c : Dev nD,
      r.2.mem ((c.tc : Thread nD τ).loc main_v3) = lookup (idsArg m c) (tableArg m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c (hin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Run

end
-- ==== Proof.lean ====
/-
  An embedding lookup computed as a one-hot matrix product equals the row gather, on token ids that name rows.

  The kernel views the [32, 4096] token ids as 131072 flat tokens and, for each tile of 2048 tokens, runs over the
  32000 vocabulary ids in ten steps of 3200: at each step it multiplies the tile's indicator block (is token r's id
  this vocabulary id?) with the step's block of the [32000, 128] table and accumulates; after the last step the
  accumulator is the tile's output. The reference gathers row ids[b, s] of the table directly, after numpy's
  treatment of negative positions, and fills with a marker where the position is out of range.

  On the extended reals the two agree whenever every id, read signed, lies in [0, 32000) — the precondition's range
  conjuncts. Then the reference's shift and fill never act and it reads the table's row at the id. In the kernel
  each token's indicator is one for exactly one of the 32000 vocabulary ids, a zero indicator annihilates its term
  whatever the table holds, and adding zero changes nothing, so the accumulated sum is that one row. No arithmetic
  law that fails at an infinity is used, so the finiteness of the table plays no part; the changes of float format
  on the way are the identity on the extended reals.

  Both programs' results are stated as the one function `Cert.Embed.lookup` of the arguments (Proof/Spec.lean). The
  reference's run and its value at an index are Proof/RefRun.lean and Proof/RefValue.lean; the range is read out of
  the precondition in Proof/PreRange.lean; the kernel's per-case pieces, one step at an entry, the blocks at a grid
  point, the accumulator after every point, and the run are Proof/KernelPieces.lean, KernelStep.lean,
  KernelBlocks.lean, KernelInvariant.lean and KernelRun.lean. The two kernel programs' frames are the generated ones;
  the reference's frame is its run with the result dropped; the idealization rewrote nothing.
-/
import proofs.«413346_j58969900974133_2_alg».proof.Defs
import proofs.«413346_j58969900974133_2_alg».proof.Proof.Gen.Kernel
import proofs.«413346_j58969900974133_2_alg».proof.Proof.Gen.Kernel.Frame
import proofs.«413346_j58969900974133_2_alg».proof.Proof.Gen.KernelIdeal
import proofs.«413346_j58969900974133_2_alg».proof.Proof.Gen.KernelIdeal.Frame
import proofs.«413346_j58969900974133_2_alg».proof.Proof.Gen.ReferenceIdeal
import proofs.«413346_j58969900974133_2_alg».proof.Proof.Gen.Pre_finite_inputs
import proofs.«413346_j58969900974133_2_alg».proof.Proof.PreRange
import proofs.«413346_j58969900974133_2_alg».proof.Proof.RefValue
import proofs.«413346_j58969900974133_2_alg».proof.Proof.KernelRun
import Idealize.ShloMosaic.Adequacy
import Idealize.ShloMosaic.Init

noncomputable section

namespace Cert.Proof

open Idealize.ShloMosaic Idealize.SL.Sem Cert.Embed

/-- The word-level kernel runs and leaves its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the arguments and satisfy the precondition, both programs end at the lookup of the
    arguments: the kernel by its run, the reference by its run and its value at an index, each using only that the
    ids are in range. -/
theorem algebraic : Cert.algebraic_KernelIdeal_ReferenceIdeal := by
  intro m ρ m' ρ' hpre hagree
  have hin : ∀ c : Dev Cert.KernelIdeal.nD, InRange (Cert.KernelIdeal.Blocks.idsArg m c) :=
    fun c => inRange_of_pre _ _ (hpre c)
  refine ⟨fun c => lookup (Cert.KernelIdeal.Blocks.idsArg m c) (Cert.KernelIdeal.Blocks.tableArg m c),
    Cert.KernelIdeal.Run.run m ρ hin, ?_⟩
  refine (θ_run Cert.ReferenceIdeal.defs _ _).mono (fun _ h c => ⟨?_, (h c).2⟩)
    (Cert.ReferenceIdeal.RefRun.run (F := Ideal) m' ρ')
  rw [(h c).1, (hagree c).1, (hagree c).2]
  exact Cert.ReferenceIdeal.RefValue.gathered_eq_lookup _ _ (hin c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
